-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x64 .f32) (main_arg1 : FVec F S2048x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S2048x64 : Shape := ⟨2, ![2048, 64]⟩
abbrev S64x2048 : Shape := ⟨2, ![64, 2048]⟩
abbrev S2048x2048 : Shape := ⟨2, ![2048, 2048]⟩
abbrev S256x64 : Shape := ⟨2, ![256, 64]⟩
abbrev S64x256 : Shape := ⟨2, ![64, 256]⟩
abbrev S256x256 : Shape := ⟨2, ![256, 256]⟩
abbrev S256x64x1 : Shape := ⟨3, ![256, 64, 1]⟩
abbrev S1x64x256 : Shape := ⟨3, ![1, 64, 256]⟩
abbrev S256x64x256 : Shape := ⟨3, ![256, 64, 256]⟩

abbrev nBuf : Space → Nat
  | .hbm => 4
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S64x2048, .f32⟩
  | .hbm, ⟨3, _⟩ => ⟨S2048x2048, .f32⟩
  | .local _ .vmem, ⟨0, _⟩ => ⟨S256x64, .f32⟩
  | .local _ .vmem, ⟨1, _⟩ => ⟨S256x64, .f32⟩
  | .local _ .vmem, ⟨2, _⟩ => ⟨S64x256, .f32⟩
  | .local _ .vmem, ⟨3, _⟩ => ⟨S64x256, .f32⟩
  | .local _ .vmem, ⟨4, _⟩ => ⟨S256x256, .f32⟩
  | .local _ .vmem, ⟨5, _⟩ => ⟨S256x256, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2048x64_S64x2048_1_0 : S2048x64.Transposes [1, 0] S64x2048
  inb_S256x64_S256x64_0_0 : ∀ a, (![0, 0] : Fin 2 → Nat) a + S256x64.size a ≤ S256x64.size a
  h_S256x64 : 0 < S256x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S256x64_S256x64x1 : S256x64.ShapeCasts S256x64x1
  shapeCasts_S64x256_S1x64x256 : S64x256.ShapeCasts S1x64x256
  broadcasts_S256x64x1_S256x64x256 : S256x64x1.Broadcasts S256x64x256
  broadcasts_S1x64x256_S256x64x256 : S1x64x256.Broadcasts S256x64x256
  reduces_S256x64x256_S256x256 : S256x64x256.Reduces [1] S256x256
  inb_S256x256_S256x256_0_0 : ∀ a, (![0, 0] : Fin 2 → Nat) a + S256x256.size a ≤ S256x256.size a
  h_S256x256 : 0 < S256x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S2048x64.size a
  hwx0_0 : ∀ i : grid0.Coords, EltTy.bits .f32 = 32 ∨ (Rect.block (s := S2048x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x2048.size a
  hwx0_1 : ∀ i : grid0.Coords, EltTy.bits .f32 = 32 ∨ (Rect.block (s := S64x2048) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S2048x2048.size a
  hwx0_2 : ∀ i : grid0.Coords, EltTy.bits .f32 = 32 ∨ (Rect.block (s := S2048x2048) S256x256.size (cc0_transform_2 i) (hinb0_2 i)).WholeWords (EltTy.packing .f32)

variable [Facts₀]

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64 : Shape := ⟨2, ![2048, 64]⟩
abbrev S_ : Shape := ⟨0, ![]⟩
abbrev S64 : Shape := ⟨1, ![64]⟩
abbrev S1x64 : Shape := ⟨2, ![1, 64]⟩
abbrev S2048x1x64 : Shape := ⟨3, ![2048, 1, 64]⟩
abbrev S1x2048x64 : Shape := ⟨3, ![1, 2048, 64]⟩
abbrev S2048x2048x64 : Shape := ⟨3, ![2048, 2048, 64]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S_, .f32⟩
  | .hbm, ⟨3, _⟩ => ⟨S64, .f32⟩
  | .hbm, ⟨4, _⟩ => ⟨S1x64, .f32⟩
  | .hbm, ⟨5, _⟩ => ⟨S_, .f32⟩
  | .hbm, ⟨6, _⟩ => ⟨S1x64, .f32⟩
  | .hbm, ⟨7, _⟩ => ⟨S1x64, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S2048x1x64, .f32⟩
  | .hbm, ⟨13, _⟩ => ⟨S1x2048x64, .f32⟩
  | .hbm, ⟨14, _⟩ => ⟨S2048x2048x64, .f32⟩
  | .hbm, ⟨15, _⟩ => ⟨S2048x2048x64, .f32⟩
  | .hbm, ⟨16, _⟩ => ⟨S2048x2048x64, .f32⟩
  | .hbm, ⟨17, _⟩ => ⟨S2048x2048x64, .f32⟩
  | .hbm, ⟨18, _⟩ => ⟨S_, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S2048x64_S64_d0 : S2048x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S2048x64_0_1 : S1x64.BroadcastsInDim S2048x64 (![0, 1] : Fin 2 → Fin S2048x64.rank)
  bcast_S2048x64_S2048x1x64_0_2 : S2048x64.BroadcastsInDim S2048x1x64 (![0, 2] : Fin 2 → Fin S2048x1x64.rank)
  bcast_S2048x64_S1x2048x64_1_2 : S2048x64.BroadcastsInDim S1x2048x64 (![1, 2] : Fin 2 → Fin S1x2048x64.rank)
  bcast_S2048x1x64_S2048x2048x64_0_1_2 : S2048x1x64.BroadcastsInDim S2048x2048x64 (![0, 1, 2] : Fin 3 → Fin S2048x2048x64.rank)
  bcast_S1x2048x64_S2048x2048x64_0_1_2 : S1x2048x64.BroadcastsInDim S2048x2048x64 (![0, 1, 2] : Fin 3 → Fin S2048x2048x64.rank)
  reducesTo_S2048x2048x64_S2048x2048_d2 : S2048x2048x64.ReducesTo [2] S2048x2048
  bcast_S_S2048x2048 : S_.BroadcastsInDim S2048x2048 (![] : Fin 0 → Fin S2048x2048.rank)

variable [Facts₀]

class Facts : Prop extends Facts₀ where

variable [Facts]
-- ==== Proof.L1Spec.lean ====
/-
  The mathematics of the certificate, with no program in sight.

  For two arrays x, y of 2048 rows and 64 columns, the pairwise L1 distance floored at zero is
      dist x y (p, q) = max (∑ d, |x (p, d) - y (q, d)|) 0 .
  The centred form first subtracts from BOTH arrays the column means of x,
      mean x d = (0 + ∑ r, x (r, d)) / 2048 ,
  and then takes the same distance.  A column mean is shared by the two terms of every difference, so it
  cancels: (a - s) - (b - s) = a - b.  On the extended reals this cancellation is a law of REAL numbers only
  (with s infinite the left side is not a - b), which is why the entries are asked to be reals: then each column
  mean is a real too (a finite sum of reals, divided by 2048), and the two forms are one function.

  |a| is written max a (-a), the absolute value of the extended reals as the ideal float instance has it, and
  the zero and 2048 are kept as the float words the programs print until the law needs their values.
-/
import Idealize.ShloMosaic.PureOps.Ideal
import Idealize.ShloMosaic.PureOps.Ideal.Laws
import Idealize.ShloMosaic.Lib.ValueIdx

noncomputable section

open scoped BigOperators

namespace Cert.L1

open Idealize.ShloMosaic Idealize.ShloMosaic.ValueIdx

/-- The shape of each argument: 2048 points of 64 coordinates. -/
abbrev Rows : Shape := ⟨2, ![2048, 64]⟩
/-- The shape of the result: one entry per pair of points. -/
abbrev Pairs : Shape := ⟨2, ![2048, 2048]⟩

/-- The absolute value on the extended reals. -/
abbrev mag (a : EReal) : EReal := max a (-a)

/-- The floored L1 distance between point p of x and point q of y. -/
def distAt (x y : Rows.Idx → EReal) (p q : Fin 2048) : EReal :=
  max (∑ d : Fin 64, mag (x (ix2 p d) - y (ix2 q d))) (Ideal.ofBits .f32 0x00000000#32)

/-- All pairwise distances. -/
def dist (x y : Rows.Idx → EReal) : Pairs.Idx → EReal := fun i => distAt x y (i 0) (i 1)

/-- The mean of column d of x, as a sum from the zero word divided by the word of 2048. -/
def colMean (x : Rows.Idx → EReal) (d : Fin 64) : EReal :=
  Ideal.div (Ideal.ofBits .f32 0x00000000#32 + ∑ r : Fin 2048, x (ix2 r d)) (Ideal.ofBits .f32 0x45000000#32)

/-- The distance after both arrays were centred at x's column means (the sum started from the zero word). -/
def centredDistAt (x y : Rows.Idx → EReal) (p q : Fin 2048) : EReal :=
  max (Ideal.ofBits .f32 0x00000000#32
        + ∑ d : Fin 64, mag ((x (ix2 p d) - colMean x d) - (y (ix2 q d) - colMean x d)))
    (Ideal.ofBits .f32 0x00000000#32)

/-- All pairwise centred distances. -/
def centredDist (x y : Rows.Idx → EReal) : Pairs.Idx → EReal := fun i => centredDistAt x y (i 0) (i 1)

/-- A finite sum of reals, read in the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The float word 0x45000000 is 2^11. -/
theorem ofBits_2048 : Ideal.ofBits .f32 0x45000000#32 = ((2048 : ℝ) : EReal) := by
  simp [Ideal.ofBits, Ideal.ieee, -EReal.coe_mul]; norm_num

/-- A column mean of real entries is a real. -/
theorem colMean_coe (f : Rows.Idx → ℝ) (d : Fin 64) :
    ∃ s : ℝ, colMean (fun i => ((f i : ℝ) : EReal)) d = (s : EReal) := by
  unfold colMean
  rw [Ideal.ofBits_zero_f32, zero_add, ofBits_2048, Ideal.div_coe (by norm_num), sum_coe, ← EReal.coe_mul]
  exact ⟨_, rfl⟩

/-- A real shift common to both terms leaves their difference: the law of the whole certificate. -/
theorem sub_shift_cancel (a b s : ℝ) : ((a : EReal) - (s : EReal)) - ((b : EReal) - (s : EReal)) = (a : EReal) - (b : EReal) := by
  rw [← EReal.coe_sub, ← EReal.coe_sub, ← EReal.coe_sub, ← EReal.coe_sub]
  congr 1; ring

/-- On arrays of reals, centring at the column means changes no distance. -/
theorem centredDist_eq_dist (x y : Rows.Idx → EReal) (hx : ∀ i, ∃ r : ℝ, x i = (r : EReal))
    (hy : ∀ i, ∃ r : ℝ, y i = (r : EReal)) : centredDist x y = dist x y := by
  choose f hf using hx
  choose g hg using hy
  obtain rfl : x = fun i => ((f i : ℝ) : EReal) := funext hf
  obtain rfl : y = fun i => ((g i : ℝ) : EReal) := funext hg
  funext i
  unfold centredDist dist centredDistAt distAt
  rw [Ideal.ofBits_zero_f32, zero_add]
  refine congrArg (fun t => max t (0 : EReal)) (Finset.sum_congr rfl fun d _ => ?_)
  obtain ⟨s, hs⟩ := colMean_coe f d
  rw [hs]
  exact congrArg mag (sub_shift_cancel _ _ _)

end Cert.L1

end
-- ==== Proof.RefRead.lean ====
/-
  The reference program, read one operation at a time, IS the centred distance of the specification.

  Its stages: the column sums of the first argument from the zero word, divided by the word of 2048 (the column
  means, kept as one row); that row subtracted from every row of both arguments; the two centred arrays laid out
  along a new middle and a new leading axis and broadcast against each other to [2048, 2048, 64]; the difference,
  its absolute value, the sum over the last axis from the zero word; and the floor at the zero word.
  Each broadcast only re-indexes, so entry (p, q, d) of the difference is
      (x (p, d) - mean d) - (y (q, d) - mean d) .
-/
import proofs.«180612_j72335839199292_1_alg».proof.Proof.Gen.ReferenceIdeal.Read
import proofs.«180612_j72335839199292_1_alg».proof.Proof.L1Spec

noncomputable section

open scoped BigOperators

namespace Cert.L1.Ref

open Cert.ReferenceIdeal Cert.ReferenceIdeal.Read Idealize.ShloMosaic Idealize.ShloMosaic.ValueIdx Cert.L1

/-- The row of column means the reference computes, at column (j 1), is the specification's column mean. -/
theorem mean_stage (x : S2048x64.Idx → EReal) (j : S1x64.Idx) :
    val_main_v3 (F := Ideal) x j = colMean x (j 1) := by
  rw [val_main_v3_apply, val_main_v1_apply, val_main_v0_apply, val_main_v2_apply, val_main_cst_0_apply,
    val_main_cst_apply]
  show Ideal.div (Ideal.ofBits .f32 0x00000000#32 + ∑ k : Fin 2048, x (idx_main_v0 (idx_main_v1 j) k))
      (Ideal.ofBits .f32 0x45000000#32) = _
  unfold colMean
  refine congrArg (fun s => Ideal.div (Ideal.ofBits .f32 0x00000000#32 + s) (Ideal.ofBits .f32 0x45000000#32))
    (Finset.sum_congr rfl fun k _ => congrArg x ?_)
  funext a
  match a with
  | ⟨0, _⟩ => rfl
  | ⟨1, _⟩ => rfl

/-- Entry (p, q, d) of the absolute difference the reference sums. -/
theorem abs_stage (x y : S2048x64.Idx → EReal) (i : S2048x2048.Idx) (d : Fin 64) :
    val_main_v13 (F := Ideal) x y (idx_main_v14 i d)
      = mag ((x (ix2 (i 0) d) - colMean x d) - (y (ix2 (i 1) d) - colMean x d)) := by
  rw [val_main_v13_apply, val_main_v12_apply, val_main_v10_apply, val_main_v8_apply, val_main_v5_apply,
    val_main_v4_apply, val_main_v11_apply, val_main_v9_apply, val_main_v7_apply, val_main_v6_apply]
  -- both centred arrays read the row of means at column d (the two index terms reduce to the same column)
  have m0 : val_main_v3 (F := Ideal) x (idx_main_v4 (idx_main_v8 (idx_main_v10 (idx_main_v14 i d)))) = colMean x d :=
    mean_stage x _
  have e0 : idx_main_v8 (idx_main_v10 (idx_main_v14 i d)) = ix2 (i 0) d := by
    funext a
    match a with
    | ⟨0, _⟩ => rfl
    | ⟨1, _⟩ => rfl
  have e1 : idx_main_v9 (idx_main_v11 (idx_main_v14 i d)) = ix2 (i 1) d := by
    funext a
    match a with
    | ⟨0, _⟩ => rfl
    | ⟨1, _⟩ => rfl
  rw [m0, e0, e1]
  rfl

/-- The reference's result is the centred distance. -/
theorem result_eq (x y : S2048x64.Idx → EReal) : val_main_v16 (F := Ideal) x y = centredDist x y := by
  funext i
  rw [val_main_v16_apply, val_main_v14_apply, val_main_v15_apply, val_main_cst_2_apply, val_main_cst_1_apply]
  show max (Ideal.ofBits .f32 0x00000000#32 + ∑ k : Fin 64, val_main_v13 (F := Ideal) x y (idx_main_v14 i k))
      (Ideal.ofBits .f32 0x00000000#32) = _
  unfold centredDist centredDistAt
  exact congrArg (fun s => max (Ideal.ofBits .f32 0x00000000#32 + s) (Ideal.ofBits .f32 0x00000000#32))
    (Finset.sum_congr rfl fun d _ => abs_stage x y i d)

end Cert.L1.Ref

end
-- ==== Proof.BlockValue.lean ====
/-
  What the kernel body leaves in one 256 × 256 output block, entry by entry.

  The body loads a block X of 256 points (256 × 64) and a block Y of 256 points stored coordinate-major
  (64 × 256), lays X out as [256, 64, 1] and Y as [1, 64, 256], broadcasts both to [256, 64, 256], subtracts,
  takes absolute values, sums over the middle axis and floors at zero.  The layout steps only re-index, so
  entry (p, d, q) of the difference is X (p, d) - Y (d, q), and entry (p, q) of the block is
      max (∑ d, |X (p, d) - Y (d, q)|) 0 .
-/
import proofs.«180612_j72335839199292_1_alg».proof.Proof.Gen.KernelIdeal.Value
import proofs.«180612_j72335839199292_1_alg».proof.Proof.L1Spec
import Idealize.ShloMosaic.Lib.ValueLayout
import Idealize.ShloMosaic.PureOps.Ideal.Laws

noncomputable section

open scoped BigOperators

namespace Cert.L1.Ker

open Cert.KernelIdeal Idealize.ShloMosaic Idealize.ShloMosaic.ValueIdx Cert.L1

/-- X laid out with a trailing unit axis and broadcast along it: entry (p, d, q) is X (p, d). -/
theorem spreadRows_apply (X : S256x64.Idx → EReal) (h1 : S256x64.ShapeCasts S256x64x1)
    (h2 : S256x64x1.Broadcasts S256x64x256) (p : Fin 256) (d : Fin 64) (q : Fin 256) :
    broadcastTo S256x64x256 (shapeCast S256x64x1 X h1) h2 (ix3 p d q) = X (ix2 p d) := by
  refine (broadcastTo_apply _ h2 (ix3 p d q) (ix3 p d (0 : Fin 1)) fun a => ?_).trans ?_
  · match a with
    | ⟨0, _⟩ => show p.val = if (256 : Nat) = 1 then 0 else p.val; rw [if_neg (by decide)]
    | ⟨1, _⟩ => show d.val = if (64 : Nat) = 1 then 0 else d.val; rw [if_neg (by decide)]
    | ⟨2, _⟩ => show 0 = if (1 : Nat) = 1 then 0 else q.val; rw [if_pos rfl]
  · refine shapeCast_apply X h1 _ _ ?_
    rw [Shape.rowMajor_val_two, Shape.rowMajor_val_three]
    show p.val * 64 + d.val = (p.val * 64 + d.val) * 1 + 0
    omega

/-- Y laid out with a leading unit axis and broadcast along it: entry (p, d, q) is Y (d, q). -/
theorem spreadCols_apply (Y : S64x256.Idx → EReal) (h0 : S64x256.ShapeCasts S64x256)
    (h1 : S64x256.ShapeCasts S1x64x256) (h2 : S1x64x256.Broadcasts S256x64x256) (p : Fin 256) (d : Fin 64)
    (q : Fin 256) :
    broadcastTo S256x64x256 (shapeCast S1x64x256 (shapeCast S64x256 Y h0) h1) h2 (ix3 p d q) = Y (ix2 d q) := by
  refine (broadcastTo_apply _ h2 (ix3 p d q) (ix3 (0 : Fin 1) d q) fun a => ?_).trans ?_
  · match a with
    | ⟨0, _⟩ => show 0 = if (1 : Nat) = 1 then 0 else p.val; rw [if_pos rfl]
    | ⟨1, _⟩ => show d.val = if (64 : Nat) = 1 then 0 else d.val; rw [if_neg (by decide)]
    | ⟨2, _⟩ => show q.val = if (256 : Nat) = 1 then 0 else q.val; rw [if_neg (by decide)]
  · rw [shapeCast_ab_1ab_apply, shapeCast_self]

/-- The sum over the middle axis of a [256, 64, 256] array, at (p, q), is the sum over d of its entries (p, d, q). -/
theorem sumMiddle_apply (src : S256x64x256.Idx → EReal) (h : S256x64x256.Reduces [1] S256x256)
    (hφ : FKind.Formats .f32) (hacc : (0x00000000#32 : BitVec 32) = FKind.add.neutral .f32 hφ) (p q : Fin 256) :
    multiReduction (F := Ideal) (φ := .f32) .add [1] S256x256 src 0x00000000#32 h hφ hacc (ix2 p q)
      = ∑ d : Fin 64, src (ix3 p d q) := by
  refine (Ideal.multiReduction_add_single (φ := .f32) src 0x00000000#32 h hφ hacc (ix2 p q)).trans ?_
  refine Finset.sum_congr rfl fun d _ => congrArg src ?_
  funext a
  apply Fin.ext
  match a with
  | ⟨0, _⟩ => rfl
  | ⟨1, _⟩ => rfl
  | ⟨2, _⟩ => rfl

/-- THE BLOCK: entry (p, q) of what the body stores is the floored L1 distance of row p of X and column q of Y. -/
theorem block_apply (X : S256x64.Idx → EReal) (Y : S64x256.Idx → EReal) (p q : Fin 256) :
    Value.E2 (F := Ideal) X Y (ix2 p q)
      = max (∑ d : Fin 64, mag (X (ix2 p d) - Y (ix2 d q))) (Ideal.ofBits .f32 0x00000000#32) := by
  have hy : Value.ix2_0 (ix2 p q) = ix2 p q := by
    funext a
    match a with
    | ⟨0, _⟩ => rfl
    | ⟨1, _⟩ => rfl
  unfold Value.E2
  rw [hy]
  refine congrArg (fun s => max s (Ideal.ofBits .f32 0x00000000#32)) ?_
  refine (sumMiddle_apply _ _ _ _ p q).trans (Finset.sum_congr rfl fun d _ => ?_)
  exact congrArg₂ (fun a b : EReal => mag (a - b)) (spreadRows_apply X _ _ p d q) (spreadCols_apply Y _ _ _ p d q)

end Cert.L1.Ker

end
-- ==== Proof.ArrayValue.lean ====
/-
  From the blocks to the whole result.

  The grid has 8 × 8 points.  Point (a, b) is handed rows 256a … 256a + 255 of x (all 64 coordinates), columns
  256b … 256b + 255 of the coordinate-major copy of y (all 64 coordinates; the program makes that copy by one
  transpose before the kernel runs), and writes block (a, b) of the result.  So entry (p', q') of the block it
  writes is the floored L1 distance of point 256a + p' of x and point 256b + q' of y: the block is the
  restriction of ONE function of the two arguments, the pairwise distance of the specification.  The 64 blocks
  tile the result (the block holding entry (p, q) is (p / 256, q / 256)), so after the run the result array is
  that function.
-/
import proofs.«180612_j72335839199292_1_alg».proof.Proof.Gen.KernelIdeal.Value
import proofs.«180612_j72335839199292_1_alg».proof.Proof.BlockValue
import Idealize.ShloMosaic.Lib.Pipeline.Value
import Idealize.ShloMosaic.Lib.StableHlo.Run
import Idealize.ShloMosaic.Lib.ValueLayout

noncomputable section

open scoped BigOperators

namespace Cert.L1.Arr

open Cert.KernelIdeal Cert.KernelIdeal.Gen Idealize.ShloMosaic Idealize.ShloMosaic.TcCoe Idealize.SL.Sem
open Idealize.ShloMosaic.StableHlo Idealize.ShloMosaic.ValueIdx Cert.L1
open Idealize.ShloMosaic.Pipeline (Dat)

variable (m : (ℓ : Loc nD τ sig) → Buf (Elt Ideal) ℓ) (ρ : Dev nD → PrngReg)

/-- The body's loads and its store all start at the origin of their buffers. -/
theorem zeroOffsets : (![0, 0] : Fin 2 → Nat) = fun _ => 0 := funext fun a => by fin_cases a <;> rfl

/-- What the body leaves in the output buffer at (p, q), for any contents X, Y of its two input buffers. -/
theorem stored_apply (X : Vec Ideal S256x64 .f32) (Y : Vec Ideal S64x256 .f32) (p q : Fin 256) :
    out0_2 X Y (ix2 p q) = max (∑ d : Fin 64, mag (X (ix2 p d) - Y (ix2 d q))) (Ideal.ofBits .f32 0x00000000#32) := by
  unfold out0_2
  simp only [View.ld_unit_zero (S := S256x64) zeroOffsets, View.ld_unit_zero (S := S64x256) zeroOffsets]
  rw [Value.canon2_eq]
  exact Ker.block_apply X Y p q

/-- The array the second window stages is the second argument transposed. -/
theorem yT_eq (c : Dev nD) :
    (V m c main_v0 : S64x2048.Idx → EReal)
      = transpose S64x2048 [1, 0] (m ((c : Thread nD τ).loc main_arg1)) transposes_S2048x64_S64x2048_1_0 := by
  dsimp only [V, hostOps0]
  after_results

/-- The three index maps over the grid: the rows of x move with the result's block row, the columns of the
    transposed y with its block column, and both input blocks span all 64 coordinates. -/
theorem grid_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every block of the result is some point's. -/
theorem grid_onto : ∀ (a b : Fin 8), ∃ t : Fin cfg0.N, win0_2.index t = ![a.val, b.val] :=
  (by decide +kernel : ∀ (a b : Fin 8), ∃ t : Fin grid0.N, win0_2.index t = ![a.val, b.val])

/-- WHAT POINT t WRITES BACK is block t of the pairwise distances of the two arguments. -/
theorem flushed_eq (c : Dev nD) (t : Fin cfg0.N) :
    (dats m 0 c).flushed 2 t = ((cfg0.win 2).blk t).view.read (Elt Ideal)
      (dist (m ((c : Thread nD τ).loc main_arg0)) (m ((c : Thread nD τ).loc main_arg1))) := by
  rw [Value.flushed2]
  obtain ⟨e00, e01, e10, e11⟩ := grid_facts t
  funext j
  have hj0 : (j 0).val < 256 := (j 0).isLt
  have hj1 : (j 1).val < 256 := (j 1).isLt
  show out0_2 (iblk m c 0 t) (iblk m c 1 t) j = dist _ _ (((cfg0.win 2).blk t).view.emb j)
  refine (congrArg (out0_2 (iblk m c 0 t) (iblk m c 1 t)) (eq_ix2 (n0 := 256) (n1 := 256) j)).trans ?_
  refine (stored_apply (iblk m c 0 t) (iblk m c 1 t) (j 0) (j 1)).trans ?_
  unfold dist distAt
  refine congrArg (fun s => max s (Ideal.ofBits .f32 0x00000000#32))
    (Finset.sum_congr rfl fun d _ => congrArg₂ (fun a b : EReal => mag (a - b)) ?_ ?_)
  · -- the x block at (p', d) is x at (256a + p', d)
    show V m c main_arg0 (((cfg0.win 0).blk t).view.emb (ix2 (j 0) d)) = _
    rw [V_main_arg0]
    refine congrArg _ (funext fun a => Fin.ext ?_)
    match a with
    | ⟨0, _⟩ =>
      show win0_0.index t (0 : Fin 2) * 256 + 1 * (j 0).val = win0_2.index t (0 : Fin 2) * 256 + 1 * (j 0).val
      omega
    | ⟨1, _⟩ =>
      show win0_0.index t (1 : Fin 2) * 64 + 1 * d.val = d.val
      omega
  · -- the transposed y block at (d, q') is y at (256b + q', d)
    show V m c main_v0 (((cfg0.win 1).blk t).view.emb (ix2 d (j 1))) = _
    rw [yT_eq]
    refine transpose_apply _ _ _ _ _ fun b => ?_
    match b with
    | ⟨0, _⟩ =>
      show d.val = win0_1.index t (0 : Fin 2) * 64 + 1 * d.val
      omega
    | ⟨1, _⟩ =>
      show win0_2.index t (1 : Fin 2) * 256 + 1 * (j 1).val = win0_1.index t (1 : Fin 2) * 256 + 1 * (j 1).val
      omega

/-- An entry of the result lies in point t's block iff each coordinate lies in the block's range. -/
theorem mem_block (t : Fin cfg0.N) (i : S2048x2048.Idx) :
    i ∈ ((cfg0.win 2).blk t).view.set ↔ ∀ a : Fin 2, win0_2.index t a * S256x256.size a ≤ (i a).val
      ∧ (i a).val < win0_2.index t a * S256x256.size a + S256x256.size a := by
  show i ∈ ((View.whole main_v1).slice (win0_2.rect t)).set ↔ _
  rw [View.set_slice_whole, Rect.mem_set_unit]
  exact Iff.rfl

/-- The blocks tile the result: entry (p, q) is in the block of point (p / 256, q / 256), which writes back. -/
theorem covered (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := grid_onto ⟨(i 0).val / 256, by omega⟩ ⟨(i 1).val / 256, by omega⟩
  have q0 : win0_2.index t (0 : Fin 2) = (i 0).val / 256 := congrFun ht 0
  have q1 : win0_2.index t (1 : Fin 2) = (i 1).val / 256 := congrFun ht 1
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 256 ≤ (i 1).val ∧ (i 1).val < win0_2.index t (1 : Fin 2) * 256 + 256
    omega

/-- THE RESULT ARRAY after the run is the pairwise distance of the two arguments. -/
theorem result_eq (c : Dev nD) :
    (dats m 0 c).arrAt 2 cfg0.N
      = dist (m ((c : Thread nD τ).loc main_arg0)) (m ((c : Thread nD τ).loc main_arg1)) :=
  (dats m 0 c).arrAt_eq_of_cover 2 _ (fun t _ => flushed_eq m c t) covered

/-- The kernel's run, read: the result at the pairwise distances, the arguments unchanged. -/
theorem run : θ_run defs (onTc (τ := τ) (main (F := Ideal))) ⟨m, fun _ => 0, ρ⟩ fun r => ∀ c : Dev nD,
      r.2.mem ((c : Thread nD τ).loc main_v1)
        = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (Value.run_blocks m ρ)

end Cert.L1.Arr

end
-- ==== Proof.FiniteInputs.lean ====
/-
  What the precondition says: every entry of both arguments is a real number.

  The precondition is the conjunction of two tests, one per argument, each "every entry's absolute value is below
  the float word of +∞".  That word denotes the top of the extended reals, and |a| = max a (-a) is below the top
  exactly when a is neither infinity, that is, when a is a real.
-/
import proofs.«180612_j72335839199292_1_alg».proof.Pre_finite_inputs
import proofs.«180612_j72335839199292_1_alg».proof.Proof.Gen.Pre_finite_inputs
import Idealize.ShloMosaic.PureOps.Ideal
import Idealize.ShloMosaic.Lib.ValueIdx
import Idealize.ShloMosaic.Lib.ReduceAll

noncomputable section

namespace Cert.L1.Finite

open Cert.Pre_finite_inputs Idealize.ShloMosaic Idealize.ShloMosaic.ValueIdx

/-- The float word of +∞ denotes the top of the extended reals. -/
theorem ofBits_inf : Ideal.ofBits .f32 0x7F800000#32 = (⊤ : EReal) := by
  simp [Ideal.ofBits, Ideal.ieee]

/-- An extended real whose absolute value is below the top is a real. -/
theorem real_of_abs_lt_top (a : EReal) (h : max a (-a) < (⊤ : EReal)) : ∃ r : ℝ, a = (r : EReal) := by
  induction a using EReal.rec with
  | bot => exact absurd h (by simp)
  | coe r => exact ⟨r, rfl⟩
  | top => exact absurd h (by simp)

/-- One test of the precondition, read at an entry. -/
theorem real_of_test (a : EReal)
    (h : FloatOps.cmpf (F := Ideal) (φ := .f32) .olt (FloatOps.hostAbsf a) (Ideal.ofBits .f32 0x7F800000#32) = 1#1) :
    ∃ r : ℝ, a = (r : EReal) := by
  refine real_of_abs_lt_top a ?_
  rw [ofBits_inf] at h
  by_contra hn
  have : FloatOps.cmpf (F := Ideal) (φ := .f32) .olt (FloatOps.hostAbsf a) (⊤ : EReal) = 0#1 := by
    show BitVec.ofBool (decide (max a (-a) < (⊤ : EReal))) = 0#1
    rw [decide_eq_false hn]; rfl
  rw [this] at h
  exact absurd h (by decide)

/-- THE PRECONDITION, DECODED: both arguments hold reals only. -/
theorem reals_of_pre (x y : S2048x64.Idx → EReal) (h : fn (F := Ideal) x y = fun _ => 1#1) :
    (∀ i, ∃ r : ℝ, x i = (r : EReal)) ∧ (∀ i, ∃ r : ℝ, y i = (r : EReal)) := by
  haveI : Subsingleton S_.Idx := ⟨fun a b => funext fun d => d.elim0⟩
  have h0 := congrFun h ix0
  dsimp only [fn] at h0
  obtain ⟨hx, hy⟩ := IntOp.andi_eq_one.1 h0
  exact ⟨fun i => real_of_test (x i) (Host.reduce_andi_all _ _ _ _ _ hx i),
    fun i => real_of_test (y i) (Host.reduce_andi_all _ _ _ _ _ hy i)⟩

end Cert.L1.Finite

end
-- ==== Proof.lean ====
/-
  The kernel computes, for two sets of 2048 points in 64 coordinates, every pairwise L1 distance floored at zero,
      max (∑ d, |x (p, d) - y (q, d)|) 0 ,
  block by block over an 8 × 8 grid, from x and a coordinate-major copy of y.  The reference first subtracts the
  column means of x from both sets and then takes the same distances.  A mean shared by the two terms of a
  difference cancels, (a - s) - (b - s) = a - b, a law of real numbers: the precondition (every entry finite)
  makes every entry, hence every column mean, a real, and the two results are one function of the arguments.

  The pieces: L1Spec (the two functions and the law), RefRead (the reference is the centred form), BlockValue
  (one block the kernel body stores), ArrayValue (the blocks tile the result), FiniteInputs (the precondition
  decoded).  The three frames are the programs' runs with the result dropped; nothing was rewritten between the
  kernel and its idealization, so that conjunct is trivial.
-/
import proofs.«180612_j72335839199292_1_alg».proof.Defs
import proofs.«180612_j72335839199292_1_alg».proof.Proof.Gen.Kernel
import proofs.«180612_j72335839199292_1_alg».proof.Proof.Gen.Kernel.Skeleton
import proofs.«180612_j72335839199292_1_alg».proof.Proof.Gen.Kernel.Launch
import proofs.«180612_j72335839199292_1_alg».proof.Proof.Gen.Kernel.Points
import proofs.«180612_j72335839199292_1_alg».proof.Proof.Gen.Kernel.Frame
import proofs.«180612_j72335839199292_1_alg».proof.Proof.Gen.KernelIdeal
import proofs.«180612_j72335839199292_1_alg».proof.Proof.Gen.KernelIdeal.Skeleton
import proofs.«180612_j72335839199292_1_alg».proof.Proof.Gen.KernelIdeal.Launch
import proofs.«180612_j72335839199292_1_alg».proof.Proof.Gen.KernelIdeal.Points
import proofs.«180612_j72335839199292_1_alg».proof.Proof.Gen.KernelIdeal.Frame
import proofs.«180612_j72335839199292_1_alg».proof.Proof.Gen.ReferenceIdeal
import proofs.«180612_j72335839199292_1_alg».proof.Proof.Gen.Pre_finite_inputs
import proofs.«180612_j72335839199292_1_alg».proof.Proof.Gen.KernelIdeal.Value
import proofs.«180612_j72335839199292_1_alg».proof.Proof.Gen.ReferenceIdeal.Run
import proofs.«180612_j72335839199292_1_alg».proof.Proof.Gen.ReferenceIdeal.Read
import proofs.«180612_j72335839199292_1_alg».proof.Proof.L1Spec
import proofs.«180612_j72335839199292_1_alg».proof.Proof.RefRead
import proofs.«180612_j72335839199292_1_alg».proof.Proof.BlockValue
import proofs.«180612_j72335839199292_1_alg».proof.Proof.ArrayValue
import proofs.«180612_j72335839199292_1_alg».proof.Proof.FiniteInputs
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, on finite arguments, the kernel's result array and the reference's are the same
    pairwise distances: the kernel's by its blocks, the reference's as the centred form, which on reals is the
    uncentred one. -/
theorem algebraic : Cert.algebraic_KernelIdeal_ReferenceIdeal := by
  intro m ρ m' ρ' hpre hagree
  refine ⟨fun c => Cert.L1.dist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.L1.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.L1.Ref.result_eq, (hagree c).1, (hagree c).2]
  obtain ⟨hx, hy⟩ := Cert.L1.Finite.reals_of_pre _ _ (hpre c)
  exact Cert.L1.centredDist_eq_dist _ _ hx hy

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
